-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072 : Shape := ⟨1, ![131072]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel

variable [Facts]

def fn {F : FTy → Type} [FloatOps F] (main_arg0 : FVec F S131072x1024 .f32) (main_arg1 : IVec S131072 32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  main_v3
-- ==== Kernel.lean ====
abbrev S131072x1024 : Shape := ⟨2, ![131072, 1024]⟩
abbrev S131072 : Shape := ⟨1, ![131072]⟩
abbrev S131072x1 : Shape := ⟨2, ![131072, 1]⟩
abbrev S2x64x1024 : Shape := ⟨3, ![2, 64, 1024]⟩
abbrev S2x1x64 : Shape := ⟨3, ![2, 1, 64]⟩
abbrev S_ : Shape := ⟨0, ![]⟩
abbrev S64x1024 : Shape := ⟨2, ![64, 1024]⟩
abbrev S1x64 : Shape := ⟨2, ![1, 64]⟩
abbrev S64x1 : Shape := ⟨2, ![64, 1]⟩
abbrev S64 : Shape := ⟨1, ![64]⟩
abbrev S2048x1 : Shape := ⟨2, ![2048, 1]⟩
abbrev S2048x1024 : Shape := ⟨2, ![2048, 1024]⟩
abbrev S1x64x1024 : Shape := ⟨3, ![1, 64, 1024]⟩
abbrev S1x1x64 : Shape := ⟨3, ![1, 1, 64]⟩
abbrev S2048x64 : Shape := ⟨2, ![2048, 64]⟩

abbrev nBuf : Space → Nat
  | .hbm => 25
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S131072x1, .i32⟩
  | .hbm, ⟨3, _⟩ => ⟨S2x64x1024, .f32⟩
  | .hbm, ⟨4, _⟩ => ⟨S2x1x64, .f32⟩
  | .hbm, ⟨5, _⟩ => ⟨S_, .f32⟩
  | .hbm, ⟨6, _⟩ => ⟨S64x1024, .f32⟩
  | .hbm, ⟨7, _⟩ => ⟨S_, .f32⟩
  | .hbm, ⟨8, _⟩ => ⟨S1x64, .f32⟩
  | .hbm, ⟨9, _⟩ => ⟨S_, .f32⟩
  | .hbm, ⟨10, _⟩ => ⟨S1x64, .f32⟩
  | .hbm, ⟨11, _⟩ => ⟨S1x64, .f32⟩
  | .hbm, ⟨12, _⟩ => ⟨S64x1, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x1024, .f32⟩
  | .hbm, ⟨24, _⟩ => ⟨S64x1024, .f32⟩
  | .local _ .vmem, ⟨0, _⟩ => ⟨S2048x1, .i32⟩
  | .local _ .vmem, ⟨1, _⟩ => ⟨S2048x1, .i32⟩
  | .local _ .vmem, ⟨2, _⟩ => ⟨S2048x1024, .f32⟩
  | .local _ .vmem, ⟨3, _⟩ => ⟨S2048x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1x64, .f32⟩
  | .local _ .vmem, ⟨7, _⟩ => ⟨S1x1x64, .f32⟩
  | .local _ .vmem, ⟨8, _⟩ => ⟨S64x1024, .f32⟩
  | .local _ .vmem, ⟨9, _⟩ => ⟨S1x64, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_cst : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_cst_1 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_call0_v0 : Ref sig .tc := ⟨.hbm, 15, rfl⟩
abbrev main_call0_call0_cst : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_v9 : Ref sig .tc := ⟨.hbm, 19, rfl⟩
abbrev main_call0_cst_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072_S131072x1 : S131072.ShapeCasts S131072x1
  reducesTo_S2x64x1024_S64x1024_d0 : S2x64x1024.ReducesTo [0] S64x1024
  h_S_ : 0 < S_.numel
  reducesTo_S2x1x64_S1x64_d0 : S2x1x64.ReducesTo [0] S1x64
  bcast_S_S1x64 : S_.BroadcastsInDim S1x64 (![] : Fin 0 → Fin S1x64.rank)
  transposes_S1x64_S64x1_1_0 : S1x64.Transposes [1, 0] S64x1
  bcast_S64x1_S64x1024_0_1 : S64x1.BroadcastsInDim S64x1024 (![0, 1] : Fin 2 → Fin S64x1024.rank)
  reducesTo_S64x1024_S64_d1 : S64x1024.ReducesTo [1] S64
  bcast_S64_S64x1_0 : S64.BroadcastsInDim S64x1 (![0] : Fin 1 → Fin S64x1.rank)
  bcast_S_S64x1 : S_.BroadcastsInDim S64x1 (![] : Fin 0 → Fin S64x1.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x64_d1_w32 : S2048x64.Iotas .tc 32 [1]
  broadcasts_S2048x1_S2048x64 : S2048x1.Broadcasts S2048x64
  natLt_1_32 : 1 < 32
  inb_S2048x1024_S2048x1024_0_0 : ∀ a, (![0, 0] : Fin 2 → Nat) a + S2048x1024.size a ≤ S2048x1024.size a
  h_S2048x1024 : 0 < S2048x1024.numel
  reduces_S2048x64_S64 : S2048x64.Reduces [0] S64
  shapeCasts_S64_S1x64 : S64.ShapeCasts S1x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  dot_S2048x64_S2048x1024_S64x1024_0_0_1_1_n_n_wf : DotDims.WF S2048x64 S2048x1024 S64x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S131072x1.size a
  hwx0_0 : ∀ i : grid0.Coords, EltTy.bits .i32 = 32 ∨ (Rect.block (s := S131072x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S131072x1024.size a
  hwx0_1 : ∀ i : grid0.Coords, EltTy.bits .f32 = 32 ∨ (Rect.block (s := S131072x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S2x64x1024.size a
  hwx0_2 : ∀ i : grid0.Coords, EltTy.bits .f32 = 32 ∨ (Rect.block (s := S2x64x1024) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)

variable [Facts₀]

def dot_S2048x64_S2048x1024_S64x1024_0_0_1_1_n_n : DotDims S2048x64 S2048x1024 S64x1024 where
  lhsContracting := [0]
  rhsContracting := [0]
  lhsNonContracting := [1]
  rhsNonContracting := [1]
  lhsBatch := []
  rhsBatch := []
  wf := dot_S2048x64_S2048x1024_S64x1024_0_0_1_1_n_n_wf

abbrev win0_0 : Pipeline.Window sig grid0 :=
  Pipeline.Window.ofSpec (Memref.whole main_call0_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x1024 : Shape := ⟨2, ![131072, 1024]⟩
abbrev S131072 : Shape := ⟨1, ![131072]⟩
abbrev S_ : Shape := ⟨0, ![]⟩
abbrev S64x1024 : Shape := ⟨2, ![64, 1024]⟩
abbrev S131072x1 : Shape := ⟨2, ![131072, 1]⟩
abbrev S64 : Shape := ⟨1, ![64]⟩
abbrev S64x1 : Shape := ⟨2, ![64, 1]⟩

abbrev nBuf : Space → Nat
  | .hbm => 28
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S_, .f32⟩
  | .hbm, ⟨3, _⟩ => ⟨S64x1024, .f32⟩
  | .hbm, ⟨4, _⟩ => ⟨S131072x1, .i32⟩
  | .hbm, ⟨5, _⟩ => ⟨S64x1024, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S64, .f32⟩
  | .hbm, ⟨10, _⟩ => ⟨S131072x1, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x1024, .f32⟩
  | .hbm, ⟨27, _⟩ => ⟨S64x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  reducesTo_S64x1024_S64_d1 : S64x1024.ReducesTo [1] S64
  h_S_ : 0 < S_.numel
  bcast_S_S64x1 : S_.BroadcastsInDim S64x1 (![] : Fin 0 → Fin S64x1.rank)
  scatter_S64x1024_S131072x1_S131072x1024_1_0_0_1_wf : ScatterDims.WF S64x1024 S131072x1 S131072x1024 [1] [0] [0] 1
  scatter_S64_S131072x1_S131072_n_0_0_1_wf : ScatterDims.WF S64 S131072x1 S131072 [] [0] [0] 1

variable [Facts₀]

def scatter_S64x1024_S131072x1_S131072x1024_1_0_0_1 : ScatterDims S64x1024 S131072x1 S131072x1024 where
  updateWindowDims := [1]
  insertedWindowDims := [0]
  scatterDimsToOperandDims := [0]
  indexVectorDim := 1
  wf := scatter_S64x1024_S131072x1_S131072x1024_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf

class Facts : Prop extends Facts₀ where

variable [Facts]
-- ==== Proof.Pieces.lean ====
import proofs.«431133_j10909216932176_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! What each control case of the body leaves, read as values of the loads. A middle tile adds its segment sums
    and counts to what the tile before left; the first tile of a core adds them to zero; the last tile also copies
    both running totals to the core's output blocks. -/

/-- A middle tile: the running sums plus this tile's. -/
theorem sB0 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : ¬cond0_1 i) (x0 : Vec F S2048x1 .i32) (x1 : Vec F S2048x1024 .f32) (xs0 : Vec F S64x1024 .f32) (xs1 : Vec F S1x64 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2]

/-- A middle tile: the running counts plus this tile's. -/
theorem sB1 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : ¬cond0_1 i) (x0 : Vec F S2048x1 .i32) (x1 : Vec F S2048x1024 .f32) (xs0 : Vec F S64x1024 .f32) (xs1 : Vec F S1x64 .f32) :
    sout0_B_1 c i arg2 harg2 arg3 harg3 arg4 harg4 arg5 harg5 arg6 harg6 arg7 harg7 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2]

/-- The last tile of a core: the sums are updated as at a middle tile. -/
theorem sC0 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : cond0_1 i) (x0 : Vec F S2048x1 .i32) (x1 : Vec F S2048x1024 .f32) (xs0 : Vec F S64x1024 .f32) (xs1 : Vec F S1x64 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2]

/-- The last tile of a core: the counts are updated as at a middle tile. -/
theorem sC1 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : cond0_1 i) (x0 : Vec F S2048x1 .i32) (x1 : Vec F S2048x1024 .f32) (xs0 : Vec F S64x1024 .f32) (xs1 : Vec F S1x64 .f32) :
    sout0_C_1 c i arg2 harg2 arg3 harg3 arg4 harg4 arg5 harg5 arg6 harg6 arg7 harg7 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2]

/-- The last tile of a core: the sums' output block is the updated running sums, re-laid with a unit axis. -/
theorem oC2 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : cond0_1 i) (x0 : Vec F S2048x1 .i32) (x1 : Vec F S2048x1024 .f32) (xs0 : Vec F S64x1024 .f32) (xs1 : Vec F S1x64 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2, View.readCov_unit_zero (S := S64x1024) _ hz2, View.readCov_unit_zero (S := S1x64) _ hz2]

/-- The last tile of a core: the counts' output block is the updated running counts, re-laid with a unit axis. -/
theorem oC3 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : ¬cond0_0 i) (hc1 : cond0_1 i) (x0 : Vec F S2048x1 .i32) (x1 : Vec F S2048x1024 .f32) (xs0 : Vec F S64x1024 .f32) (xs1 : Vec F S1x64 .f32) :
    out0_C_3 c i arg2 harg2 arg3 harg3 arg4 harg4 arg5 harg5 arg6 harg6 arg7 harg7 hc0 hc1 x0 x1 xs0 xs1 = k0_pay7 (k0_pay5 x0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2, View.readCov_unit_zero (S := S64x1024) _ hz2, View.readCov_unit_zero (S := S1x64) _ hz2]

/-- The first tile of a core: the sums restart from the zero block. -/
theorem sA0 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : cond0_0 i) (hc1 : ¬cond0_1 i) (x0 : Vec F S2048x1 .i32) (x1 : Vec F S2048x1024 .f32) :
    sout0_A_0 c i arg2 harg2 arg3 harg3 arg4 harg4 arg5 harg5 arg6 harg6 arg7 harg7 hc0 hc1 x0 x1 = k0_pay4 x0 x1 k0_pay1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S64x1024) hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2, View.readCov_unit_zero (S := S64x1024) _ hz2, View.readCov_unit_zero (S := S1x64) _ hz2]

/-- The first tile of a core: the counts restart from the zero block. -/
theorem sA1 (c : Dev nD) (i : grid0.Coords) (arg2 : Memref sig .tc .vmem S2048x1 .i32) (harg2 : arg2.IsWhole) (arg3 : Memref sig .tc .vmem S2048x1024 .f32) (harg3 : arg3.IsWhole) (arg4 : Memref sig .tc .vmem S1x64x1024 .f32) (harg4 : arg4.IsWhole) (arg5 : Memref sig .tc .vmem S1x1x64 .f32) (harg5 : arg5.IsWhole) (arg6 : Memref sig .tc .vmem S64x1024 .f32) (harg6 : arg6.IsWhole) (arg7 : Memref sig .tc .vmem S1x64 .f32) (harg7 : arg7.IsWhole) (hc0 : cond0_0 i) (hc1 : ¬cond0_1 i) (x0 : Vec F S2048x1 .i32) (x1 : Vec F S2048x1024 .f32) :
    sout0_A_1 c i arg2 harg2 arg3 harg3 arg4 harg4 arg5 harg5 arg6 harg6 arg7 harg7 hc0 hc1 x0 x1 = k0_pay5 x0 k0_pay2 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x64) hz2]
  simp only [View.readAt_eq_ld, harg2.read_unread, harg3.read_unread, harg6.read_unread, harg7.read_unread, View.ld_unit_zero (S := S2048x1) hz2, View.ld_unit_zero (S := S2048x1024) hz2, View.ld_unit_zero (S := S64x1024) hz2, View.ld_unit_zero (S := S1x64) hz2, View.readCov_unit_zero (S := S64x1024) _ hz2, View.readCov_unit_zero (S := S1x64) _ hz2]

end Cert.KernelIdeal.PoolValue
end
-- ==== Proof.Chain.lean ====
import proofs.«431133_j10909216932176_3_alg».proof.Proof.Pieces

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]
variable (m : (ℓ : Loc nD τ sig) → Buf (Elt F) ℓ)

/-! The grid's 64 points are two cores times 32 tiles of 2048 tokens, in order. The two scratch buffers carry,
    from tile to tile of one core, the segment sums and the segment counts of the core's tiles so far. -/

/-- The segment words of tile `t`, as a column of 2048 words. -/
abbrev segBlk (c : Dev nD) (t : Fin cfg0.N) : Vec F S2048x1 .i32 := iblk m c 0 t
/-- The rows of tile `t`. -/
abbrev rowBlk (c : Dev nD) (t : Fin cfg0.N) : Vec F S2048x1024 .f32 := iblk m c 1 t

/-- At the first tile of a core the scratches hold that tile's sums and counts over zero. -/
theorem at_first (c : Dev nD) (t : Fin cfg0.N) (h0 : t.val % 32 = 0) :
    (outsAt0 m c t.val t.isLt).2.2.1 = k0_pay4 (segBlk m c t) (rowBlk m c t) k0_pay1
    ∧ (outsAt0 m c t.val t.isLt).2.2.2 = k0_pay5 (segBlk m c t) k0_pay2 := by
  have h1 : ¬t.val % 32 = 31 := by omega
  rw [outsAt0_A m c t h0 h1]
  dsimp only
  exact ⟨sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- At a middle tile they hold the tile's sums and counts over what the tile before left. -/
theorem at_middle (c : Dev nD) (t : Fin cfg0.N) (h0 : ¬t.val % 32 = 0) (h1 : ¬t.val % 32 = 31) :
    (outsAt0 m c t.val t.isLt).2.2.1 = k0_pay4 (segBlk m c t) (rowBlk m c t) (outsAt0 m c (t.val - 1) (Nat.lt_of_le_of_lt (Nat.sub_le _ _) t.isLt)).2.2.1
    ∧ (outsAt0 m c t.val t.isLt).2.2.2 = k0_pay5 (segBlk m c t) (outsAt0 m c (t.val - 1) (Nat.lt_of_le_of_lt (Nat.sub_le _ _) t.isLt)).2.2.2 := by
  rw [outsAt0_B m c t h0 h1]
  dsimp only
  exact ⟨sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At the last tile of a core likewise, and the two output blocks hold the same totals with a unit axis in front. -/
theorem at_last (c : Dev nD) (t : Fin cfg0.N) (h0 : ¬t.val % 32 = 0) (h1 : t.val % 32 = 31) :
    ((outsAt0 m c t.val t.isLt).2.2.1 = k0_pay4 (segBlk m c t) (rowBlk m c t) (outsAt0 m c (t.val - 1) (Nat.lt_of_le_of_lt (Nat.sub_le _ _) t.isLt)).2.2.1
    ∧ (outsAt0 m c t.val t.isLt).2.2.2 = k0_pay5 (segBlk m c t) (outsAt0 m c (t.val - 1) (Nat.lt_of_le_of_lt (Nat.sub_le _ _) t.isLt)).2.2.2)
    ∧ (outsAt0 m c t.val t.isLt).1 = k0_pay6 (k0_pay4 (segBlk m c t) (rowBlk m c t) (outsAt0 m c (t.val - 1) (Nat.lt_of_le_of_lt (Nat.sub_le _ _) t.isLt)).2.2.1)
    ∧ (outsAt0 m c t.val t.isLt).2.1 = k0_pay7 (k0_pay5 (segBlk m c t) (outsAt0 m c (t.val - 1) (Nat.lt_of_le_of_lt (Nat.sub_le _ _) t.isLt)).2.2.2) := by
  rw [outsAt0_C m c t h0 h1]
  dsimp only
  exact ⟨⟨sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩,
    oC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The running totals after point `n`: restarted over zero at each core's first tile, else the tile's sums and
    counts over the totals before. A closed recursion on the point, with no existential. -/
def totals (c : Dev nD) : (n : ℕ) → n < cfg0.N → Vec F S64x1024 .f32 × Vec F S1x64 .f32
  | 0, h => (k0_pay4 (segBlk m c ⟨0, h⟩) (rowBlk m c ⟨0, h⟩) k0_pay1, k0_pay5 (segBlk m c ⟨0, h⟩) k0_pay2)
  | n + 1, h =>
    if (n + 1) % 32 = 0 then
      (k0_pay4 (segBlk m c ⟨n + 1, h⟩) (rowBlk m c ⟨n + 1, h⟩) k0_pay1, k0_pay5 (segBlk m c ⟨n + 1, h⟩) k0_pay2)
    else
      (k0_pay4 (segBlk m c ⟨n + 1, h⟩) (rowBlk m c ⟨n + 1, h⟩) (totals c n (Nat.lt_of_succ_lt h)).1,
        k0_pay5 (segBlk m c ⟨n + 1, h⟩) (totals c n (Nat.lt_of_succ_lt h)).2)

/-- The scratches hold the running totals after every point: by induction on the point. -/
theorem scratch_eq (c : Dev nD) : ∀ (n : ℕ) (h : n < cfg0.N),
    (outsAt0 m c n h).2.2.1 = (totals m c n h).1 ∧ (outsAt0 m c n h).2.2.2 = (totals m c n h).2
  | 0, h => at_first m c ⟨0, h⟩ rfl
  | n + 1, h => by
    have ih := scratch_eq c n (Nat.lt_of_succ_lt h)
    by_cases h0 : (n + 1) % 32 = 0
    · have := at_first m c ⟨n + 1, h⟩ h0
      simp only [totals, if_pos h0]
      exact this
    · simp only [totals, if_neg h0]
      by_cases h1 : (n + 1) % 32 = 31
      · have := (at_last m c ⟨n + 1, h⟩ h0 h1).1
        dsimp only [Nat.add_sub_cancel] at this
        rw [this.1, this.2]
        exact ⟨congrArg _ ih.1, congrArg _ ih.2⟩
      · have := at_middle m c ⟨n + 1, h⟩ h0 h1
        dsimp only [Nat.add_sub_cancel] at this
        rw [this.1, this.2]
        exact ⟨congrArg _ ih.1, congrArg _ ih.2⟩

/-- So after a core's last tile its two output blocks hold the core's totals with a unit axis in front. -/
theorem outs_at_last (c : Dev nD) (t : Fin cfg0.N) (h1 : t.val % 32 = 31) :
    (outsAt0 m c t.val t.isLt).1 = k0_pay6 (totals m c t.val t.isLt).1
    ∧ (outsAt0 m c t.val t.isLt).2.1 = k0_pay7 (totals m c t.val t.isLt).2 := by
  have h0 : ¬t.val % 32 = 0 := by omega
  have hl := at_last m c t h0 h1
  have hs := scratch_eq m c t.val t.isLt
  rw [hl.2.1, hl.2.2, ← hl.1.1, ← hl.1.2, hs.1, hs.2]
  exact ⟨rfl, rfl⟩

end Cert.KernelIdeal.PoolValue
end
-- ==== Proof.Blocks.lean ====
import proofs.«431133_j10909216932176_3_alg».proof.Proof.Chain
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable {F : FTy → Type} [FloatOps F]
variable (m : (ℓ : Loc nD τ sig) → Buf (Elt F) ℓ)

/-! Core `k` (0 or 1) owns the points 32k … 32k+31; its last point 32k+31 is the only one that writes its
    output blocks back, and block `k` of each output array is the whole slab of core `k`. -/

theorem last_lt (k : Fin 2) : 32 * k.val + 31 < cfg0.N := by
  rw [show cfg0.N = 64 from N_0]; omega

theorem totals_congr (c : Dev nD) {n n' : ℕ} (e : n = n') (h : n < cfg0.N) (h' : n' < cfg0.N) :
    totals m c n h = totals m c n' h' := by subst e; rfl

/-- The sums' output array after the region: slab `k` is core `k`'s totals after its last tile. -/
def coreSums (c : Dev nD) : Vec F S2x64x1024 .f32 := fun j =>
  (totals m c (32 * (j 0).val + 31) (last_lt ⟨(j 0).val, (j 0).isLt⟩)).1 (ix2 (⟨(j 1).val, (j 1).isLt⟩ : Fin 64) (⟨(j 2).val, (j 2).isLt⟩ : Fin 1024))

/-- The counts' output array after the region, likewise. -/
def coreCnts (c : Dev nD) : Vec F S2x1x64 .f32 := fun j =>
  (totals m c (32 * (j 0).val + 31) (last_lt ⟨(j 0).val, (j 0).isLt⟩)).2 (ix2 (⟨(j 1).val, (j 1).isLt⟩ : Fin 1) (⟨(j 2).val, (j 2).isLt⟩ : Fin 64))

/-- The printed index maps of the two outputs, decided over the grid: the block index is the core. -/
theorem out_idx : ∀ t : Fin cfg0.N, (win0_2.index t (0 : Fin 3) = t.val / 32 ∧ win0_2.index t (1 : Fin 3) = 0 ∧ win0_2.index t (2 : Fin 3) = 0)
    ∧ (win0_3.index t (0 : Fin 3) = t.val / 32 ∧ win0_3.index t (1 : Fin 3) = 0 ∧ win0_3.index t (2 : Fin 3) = 0) :=
  (by decide +kernel : ∀ t : Fin grid0.N, _)

/-- A block with a unit axis in front, read at an index, is the block at the other two coordinates. -/
theorem pay6_at (X : Vec F S64x1024 .f32) (j : S1x64x1024.Idx) : k0_pay6 X j = X (fun a => j a.succ) := by
  unfold k0_pay6
  exact shapeCast_addUnit_apply ![64, 1024] X _ j

theorem pay7_at (X : Vec F S1x64 .f32) (j : S1x1x64.Idx) : k0_pay7 X j = X (fun a => j a.succ) := by
  unfold k0_pay7
  exact shapeCast_addUnit_apply ![1, 64] X _ j

/-- What a core's last point writes back into the sums' array is the core's slab of `coreSums`. -/
theorem flushed2 (c : Dev nD) (t : Fin cfg0.N) (hf : (cfg0.win 2).flush t = true) :
    (dats m 0 c).flushed 2 t = ((cfg0.win 2).blk t).view.read (Elt F) (coreSums m c) := by
  have h31 : t.val % 32 = 31 := (flush0_2 t).mp hf
  obtain ⟨⟨i0, i1, i2⟩, -⟩ := out_idx t
  show (cfg0.win 2).cut (grid0.coords t) ((dats m 0 c).after 2 t) = _
  rw [after0_2, (outs_at_last m c t h31).1]
  funext y
  show k0_pay6 (totals m c t.val t.isLt).1 ((cfg0.win 2).xinj (grid0.coords t) y) = coreSums m c (((cfg0.win 2).blk t).view.emb y)
  rw [pay6_at]
  unfold coreSums
  have hy0 : (y 0).val < 1 := (y 0).isLt
  have e0 : 32 * ((((cfg0.win 2).blk t).view.emb y) 0).val + 31 = t.val := by
    show 32 * (win0_2.index t (0 : Fin 3) * 1 + 1 * (y 0).val) + 31 = t.val
    rw [i0]; omega
  rw [totals_congr m c e0 _ t.isLt]
  refine congrArg (totals m c t.val t.isLt).1 ?_
  funext a
  apply Fin.ext
  match a with
  | ⟨0, _⟩ => show (y 1).val = win0_2.index t (1 : Fin 3) * 64 + 1 * (y 1).val; rw [i1]; omega
  | ⟨1, _⟩ => show (y 2).val = win0_2.index t (2 : Fin 3) * 1024 + 1 * (y 2).val; rw [i2]; omega

/-- And into the counts' array, the core's slab of `coreCnts`. -/
theorem flushed3 (c : Dev nD) (t : Fin cfg0.N) (hf : (cfg0.win 3).flush t = true) :
    (dats m 0 c).flushed 3 t = ((cfg0.win 3).blk t).view.read (Elt F) (coreCnts m c) := by
  have h31 : t.val % 32 = 31 := (flush0_3 t).mp hf
  obtain ⟨-, ⟨i0, i1, i2⟩⟩ := out_idx t
  show (cfg0.win 3).cut (grid0.coords t) ((dats m 0 c).after 3 t) = _
  rw [after0_3, (outs_at_last m c t h31).2]
  funext y
  show k0_pay7 (totals m c t.val t.isLt).2 ((cfg0.win 3).xinj (grid0.coords t) y) = coreCnts m c (((cfg0.win 3).blk t).view.emb y)
  rw [pay7_at]
  unfold coreCnts
  have hy0 : (y 0).val < 1 := (y 0).isLt
  have e0 : 32 * ((((cfg0.win 3).blk t).view.emb y) 0).val + 31 = t.val := by
    show 32 * (win0_3.index t (0 : Fin 3) * 1 + 1 * (y 0).val) + 31 = t.val
    rw [i0]; omega
  rw [totals_congr m c e0 _ t.isLt]
  refine congrArg (totals m c t.val t.isLt).2 ?_
  funext a
  apply Fin.ext
  match a with
  | ⟨0, _⟩ => show (y 1).val = win0_3.index t (1 : Fin 3) * 1 + 1 * (y 1).val; rw [i1]; omega
  | ⟨1, _⟩ => show (y 2).val = win0_3.index t (2 : Fin 3) * 64 + 1 * (y 2).val; rw [i2]; omega

/-- An index of the sums' array lies in point `t`'s block iff each coordinate lies in the block's range. -/
theorem mem_blk2 (t : Fin cfg0.N) (i : S2x64x1024.Idx) :
    i ∈ ((cfg0.win 2).blk t).view.set ↔ ∀ a : Fin 3, win0_2.index t a * S1x64x1024.size a ≤ (i a).val ∧ (i a).val < win0_2.index t a * S1x64x1024.size a + S1x64x1024.size a := by
  show i ∈ ((View.whole main_call0_v1_0).slice (win0_2.rect t)).set ↔ _
  rw [View.set_slice_whole, Rect.mem_set_unit]
  exact Iff.rfl

theorem mem_blk3 (t : Fin cfg0.N) (i : S2x1x64.Idx) :
    i ∈ ((cfg0.win 3).blk t).view.set ↔ ∀ a : Fin 3, win0_3.index t a * S1x1x64.size a ≤ (i a).val ∧ (i a).val < win0_3.index t a * S1x1x64.size a + S1x1x64.size a := by
  show i ∈ ((View.whole main_call0_v1_1).slice (win0_3.rect t)).set ↔ _
  rw [View.set_slice_whole, Rect.mem_set_unit]
  exact Iff.rfl

/-- The two cores' last points cover the sums' array, so after the region it is `coreSums`. -/
theorem final2 (c : Dev nD) : (dats m 0 c).arrAt 2 cfg0.N = coreSums m c :=
  (dats m 0 c).arrAt_eq_of_cover 2 (coreSums m c) (flushed2 m c) fun i => by
    have hk : (i 0).val < 2 := (i 0).isLt
    have h1 : (i 1).val < 64 := (i 1).isLt
    have h2 : (i 2).val < 1024 := (i 2).isLt
    let t : Fin cfg0.N := ⟨32 * (i 0).val + 31, last_lt ⟨(i 0).val, hk⟩⟩
    have ht : t.val = 32 * (i 0).val + 31 := rfl
    obtain ⟨⟨i0, i1, i2⟩, -⟩ := out_idx t
    refine ⟨t, (flush0_2 t).mpr (by rw [ht]; omega), ?_⟩
    rw [mem_blk2]
    intro a
    match a with
    | ⟨0, _⟩ => show win0_2.index t (0 : Fin 3) * 1 ≤ (i 0).val ∧ (i 0).val < win0_2.index t (0 : Fin 3) * 1 + 1; rw [i0, ht]; omega
    | ⟨1, _⟩ => show win0_2.index t (1 : Fin 3) * 64 ≤ (i 1).val ∧ (i 1).val < win0_2.index t (1 : Fin 3) * 64 + 64; rw [i1]; omega
    | ⟨2, _⟩ => show win0_2.index t (2 : Fin 3) * 1024 ≤ (i 2).val ∧ (i 2).val < win0_2.index t (2 : Fin 3) * 1024 + 1024; rw [i2]; omega

/-- Likewise the counts' array is `coreCnts`. -/
theorem final3 (c : Dev nD) : (dats m 0 c).arrAt 3 cfg0.N = coreCnts m c :=
  (dats m 0 c).arrAt_eq_of_cover 3 (coreCnts m c) (flushed3 m c) fun i => by
    have hk : (i 0).val < 2 := (i 0).isLt
    have h1 : (i 1).val < 1 := (i 1).isLt
    have h2 : (i 2).val < 64 := (i 2).isLt
    let t : Fin cfg0.N := ⟨32 * (i 0).val + 31, last_lt ⟨(i 0).val, hk⟩⟩
    have ht : t.val = 32 * (i 0).val + 31 := rfl
    obtain ⟨-, ⟨i0, i1, i2⟩⟩ := out_idx t
    refine ⟨t, (flush0_3 t).mpr (by rw [ht]; omega), ?_⟩
    rw [mem_blk3]
    intro a
    match a with
    | ⟨0, _⟩ => show win0_3.index t (0 : Fin 3) * 1 ≤ (i 0).val ∧ (i 0).val < win0_3.index t (0 : Fin 3) * 1 + 1; rw [i0, ht]; omega
    | ⟨1, _⟩ => show win0_3.index t (1 : Fin 3) * 1 ≤ (i 1).val ∧ (i 1).val < win0_3.index t (1 : Fin 3) * 1 + 1; rw [i1]; omega
    | ⟨2, _⟩ => show win0_3.index t (2 : Fin 3) * 64 ≤ (i 2).val ∧ (i 2).val < win0_3.index t (2 : Fin 3) * 64 + 64; rw [i2]; omega

end Cert.KernelIdeal.PoolValue
end
-- ==== Proof.Tail.lean ====
import proofs.«431133_j10909216932176_3_alg».proof.Proof.Blocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable {F : FTy → Type} [FloatOps F]
variable (m : (ℓ : Loc nD τ sig) → Buf (Elt F) ℓ) (ρ : Dev nD → PrngReg)

/-! After the region the host adds the two cores' slabs, clamps the counts below at one, divides, and then divides
    each row of means by its clamped Euclidean norm. -/

/-- The segment means from the two cores' sums and counts. -/
def meanOf (P0 : Vec F S2x64x1024 .f32) (P1 : Vec F S2x1x64 .f32) : FVec F S64x1024 .f32 :=
  Host.divf (Host.reduceAdd P0 (constant S_ .f32 0x00000000#32) reducesTo_S2x64x1024_S64x1024_d0 h_S_)
    (broadcastInDim S64x1024 ![0, 1] bcast_S64x1_S64x1024_0_1
      (transpose S64x1 [1, 0]
        (maximumf (Host.reduceAdd P1 (constant S_ .f32 0x00000000#32) reducesTo_S2x1x64_S1x64_d0 h_S_)
          (broadcastInDim S1x64 ![] bcast_S_S1x64 (constant S_ .f32 0x3F800000#32)))
        transposes_S1x64_S64x1_1_0))

/-- Each row of a table divided by its Euclidean norm clamped below at a small constant. -/
def normTail (v : FVec F S64x1024 .f32) : FVec F S64x1024 .f32 :=
  Host.divf v
    (broadcastInDim S64x1024 ![0, 1] bcast_S64x1_S64x1024_0_1
      (maximumf
        (Host.sqrt (broadcastInDim S64x1 ![0] bcast_S64_S64x1_0
          (Host.reduceAdd (mulf v v) (constant S_ .f32 0x00000000#32) reducesTo_S64x1024_S64_d1 h_S_)))
        (broadcastInDim S64x1 ![] bcast_S_S64x1 (constant S_ .f32 0x2B8CBCCC#32))))

/-- The buffers as the region leaves them: the pipeline's arrays at their final contents, the rest as found. -/
abbrev leftBy (c : Dev nD) : Valuation τ sig (Elt F) :=
  Pipeline.withArrays (cfgs 0).spec c (V0 m c) (fun w => (dats m 0 c).arrAt w (cfgs 0).N)

/-- The program's result is the host tail applied to the two output arrays the region leaves. -/
theorem tail_raw (c : Dev nD) :
    Pipeline.afterTail₀ cfgs (dats m) 0 (V0 m) [hostOps1] c main_v0
      = normTail (meanOf (leftBy m c (Proc.devRef .tc main_call0_v1_0)) (leftBy m c (Proc.devRef .tc main_call0_v1_1))) := by
  unfold Pipeline.afterTail₀
  show StableHlo.after hostOps1 _ (Proc.devRef .tc main_v0) = _
  after_results
  rfl

theorem left_sums (c : Dev nD) : leftBy m c (Proc.devRef .tc main_call0_v1_0) = coreSums m c :=
  (Pipeline.withArrays_arr spec0 launch0.win.arr_inj c _ _ 2).trans (final2 m c)

theorem left_cnts (c : Dev nD) : leftBy m c (Proc.devRef .tc main_call0_v1_1) = coreCnts m c :=
  (Pipeline.withArrays_arr spec0 launch0.win.arr_inj c _ _ 3).trans (final3 m c)

/-- So the result is the normalized means of the two cores' totals. -/
theorem tail_eq (c : Dev nD) :
    Pipeline.afterTail₀ cfgs (dats m) 0 (V0 m) [hostOps1] c main_v0 = normTail (meanOf (coreSums m c) (coreCnts m c)) := by
  rw [tail_raw, left_sums, left_cnts]

/-- The kernel's run, read: the result at the normalized means of the cores' totals, the arguments unchanged. -/
theorem run : θ_run defs (onTc (τ := τ) (main (F := F))) ⟨m, fun _ => 0, ρ⟩ fun r => ∀ c : Dev nD,
      r.2.mem ((c.tc : Thread nD τ).loc main_v0) = normTail (meanOf (coreSums m c) (coreCnts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.PoolValue
end
-- ==== Proof.Tiles.lean ====
import proofs.«431133_j10909216932176_3_alg».proof.Proof.Chain
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable {F : FTy → Type} [FloatOps F]
variable (m : (ℓ : Loc nD τ sig) → Buf (Elt F) ℓ)

/-! Tile `n` (point `n` of the grid) holds the tokens 2048·n … 2048·n + 2047. -/

/-- Token `r` of tile `n`. -/
def tok (n : ℕ) (r : Fin 2048) : Fin 131072 :=
  ⟨(n % 64) * 2048 + r.val, by have := r.isLt; have := Nat.mod_lt n (by decide : 64 > 0); omega⟩

/-- The printed index maps of the two inputs, decided over the grid: the block row is the point. -/
theorem in_idx : ∀ t : Fin cfg0.N, (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- The column of words the region reads is the host's reshape of the segment words. -/
theorem V_words (c : Dev nD) :
    (V m c main_call0_v0 : S131072x1.Idx → Elt F .i32)
      = shapeCast S131072x1 (m ((c.tc : Thread nD τ).loc main_arg1)) shapeCasts_S131072_S131072x1 := by
  show StableHlo.after hostOps0 (fun b => m (c, b)) (Proc.devRef .tc main_call0_v0) = _
  after_results
  rfl

/-- Row `r` of tile `t`'s rows is the row of token `tok t r`. -/
theorem rowBlk_at (c : Dev nD) (t : Fin cfg0.N) (r : Fin 2048) (h : Fin 1024) :
    rowBlk m c t (ix2 r h) = m ((c.tc : Thread nD τ).loc main_arg0) (ix2 (tok t.val r) h) := by
  obtain ⟨-, ⟨i0, i1⟩⟩ := in_idx t
  have hN : t.val < 64 := lt_of_lt_of_eq t.isLt (show cfg0.N = 64 from N_0)
  show V m c main_arg0 (((cfg0.win 1).blk t).view.emb (ix2 r h)) = _
  rw [V_main_arg0]
  refine congrArg _ (funext fun a => Fin.ext ?_)
  match a with
  | ⟨0, _⟩ => show win0_1.index t (0 : Fin 2) * 2048 + 1 * r.val = (t.val % 64) * 2048 + r.val; rw [i0, Nat.mod_eq_of_lt hN]; omega
  | ⟨1, _⟩ => show win0_1.index t (1 : Fin 2) * 1024 + 1 * h.val = h.val; rw [i1]; omega

/-- Word `r` of tile `t`'s words is the segment word of token `tok t r`. -/
theorem segBlk_at (c : Dev nD) (t : Fin cfg0.N) (r : Fin 2048) :
    segBlk m c t (ix2 r 0) = m ((c.tc : Thread nD τ).loc main_arg1) (ix1 (tok t.val r)) := by
  obtain ⟨⟨i0, i1⟩, -⟩ := in_idx t
  have hN : t.val < 64 := lt_of_lt_of_eq t.isLt (show cfg0.N = 64 from N_0)
  show V m c main_call0_v0 (((cfg0.win 0).blk t).view.emb (ix2 r 0)) = _
  rw [V_words]
  refine shapeCast_apply _ _ _ _ ?_
  show ((⟨1, ![131072]⟩ : Shape).rowMajor (ix1 (tok t.val r))).val = ((⟨2, ![131072, 1]⟩ : Shape).rowMajor (((cfg0.win 0).blk t).view.emb (ix2 r 0))).val
  rw [Shape.rowMajor_val_one, Shape.rowMajor_val_two]
  show (t.val % 64) * 2048 + r.val = (win0_0.index t (0 : Fin 2) * 2048 + 1 * r.val) * 1 + (win0_0.index t (1 : Fin 2) * 1 + 1 * 0)
  rw [i0, i1, Nat.mod_eq_of_lt hN]; omega

end Cert.KernelIdeal.PoolValue
end
-- ==== Proof.Spec.lean ====
/-
  The mathematics both programs compute, stated once over the extended reals and over literal shapes.

  Tokens t = 0 … 131071 carry a row x[t, ·] of 1024 numbers and a 32-bit segment word seg[t]. For a segment
  s < 64 the SEGMENT SUM adds the rows of the tokens whose word is s, the SEGMENT COUNT counts them; a token
  whose word is no number below 64 belongs to no segment and is dropped by both. The mean divides the sum by
  the count clamped below at one; the result divides each row of means by its Euclidean norm clamped below at
  a small constant. Float literals stay bit patterns: both programs spell the same ones.
-/
import Idealize.ShloMosaic.PureOps.Ideal
import Idealize.ShloMosaic.Lib.ValueIdx

noncomputable section

open scoped BigOperators

namespace Cert.Pool

open Idealize.ShloMosaic Idealize.ShloMosaic.ValueIdx

/-- The rows, as an array of extended reals. -/
abbrev Rows : Type := (⟨2, ![131072, 1024]⟩ : Shape).Idx → EReal
/-- The segment words. -/
abbrev Words : Type := (⟨1, ![131072]⟩ : Shape).Idx → BitVec 32

/-- Column h of the sum of the rows whose segment word is s. -/
def segSum (x : Rows) (seg : Words) (s : Fin 64) (h : Fin 1024) : EReal :=
  ∑ t : Fin 131072, if seg (ix1 t) = BitVec.ofNat 32 s.val then x (ix2 t h) else 0

/-- How many tokens carry the segment word s. -/
def segCnt (seg : Words) (s : Fin 64) : EReal :=
  ∑ t : Fin 131072, if seg (ix1 t) = BitVec.ofNat 32 s.val then (1 : EReal) else 0

/-- The segment mean: the sum over the count clamped below at the float one. -/
def mean (x : Rows) (seg : Words) (s : Fin 64) (h : Fin 1024) : EReal :=
  FloatOps.hostDivf (F := Ideal) (φ := .f32) (segSum x seg s h)
    (FloatOps.maximumf (F := Ideal) (φ := .f32) (segCnt seg s) (FloatOps.ofBits (F := Ideal) .f32 0x3F800000#32))

/-- A table of 64 rows, each divided by its Euclidean norm clamped below at the float 0x2B8CBCCC. -/
def normalized (V : Fin 64 → Fin 1024 → EReal) (s : Fin 64) (h : Fin 1024) : EReal :=
  FloatOps.hostDivf (F := Ideal) (φ := .f32) (V s h)
    (FloatOps.maximumf (F := Ideal) (φ := .f32)
      (FloatOps.hostUnary (F := Ideal) (φ := .f32) .sqrt
        (FloatOps.ofBits (F := Ideal) .f32 0x00000000#32 + ∑ k : Fin 1024, FloatOps.mulf (F := Ideal) (φ := .f32) (V s k) (V s k)))
      (FloatOps.ofBits (F := Ideal) .f32 0x2B8CBCCC#32))

/-- The pooled, normalized table: what both programs end with at row s, column h. -/
def pooled (x : Rows) (seg : Words) (s : Fin 64) (h : Fin 1024) : EReal :=
  normalized (mean x seg) s h

end Cert.Pool

end
-- ==== Proof.TileMath.lean ====
/-
  The kernel body's stored values, read one element at a time over the extended reals.

  One grid step holds a tile of 2048 tokens: their segment words seg[r] and their rows hid[r, ·]. The body
  builds the one-hot table onehot[r, s] = 1 if seg[r] is the word of s, else 0, and adds to its two
  accumulators the product onehot^T · hid (a sum over the tile's tokens) and the column sums of onehot.
  Since 1 · x = x and 0 · x = 0 for every extended real x, infinite ones included, the product at (s, h) is
  the sum of hid[r, h] over the tokens r of the tile whose word is s, and the column sum at s counts those
  tokens. The remaining stored values are zero blocks and relabelings of an index by a leading unit axis.
  Last, a sum over all 131072 tokens is the sum over the 64 tiles of the sums over each tile's 2048 tokens.
-/
import proofs.«431133_j10909216932176_3_alg».proof.Proof.Gen.KernelIdeal.Skeleton
import proofs.«431133_j10909216932176_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.TileMath

open Idealize.ShloMosaic Idealize.ShloMosaic.ValueIdx Cert.KernelIdeal Cert.KernelIdeal.Gen

/-! ## The zero blocks and the relabelings -/

/-- The first zero block: every element is zero. -/
theorem pay1_apply (j : S64x1024.Idx) : k0_pay1 (F := Ideal) j = 0 := by
  unfold k0_pay1
  rw [shapeCast_self]
  exact Ideal.ofBits_zero_f32

/-- The second zero block: every element is zero. -/
theorem pay2_apply (j : S1x64.Idx) : k0_pay2 (F := Ideal) j = 0 := by
  unfold k0_pay2
  rw [shapeCast_self]
  exact Ideal.ofBits_zero_f32

/-- The sums written out under a leading unit axis: element (0, s, h) is element (s, h). -/
theorem pay6_apply (v : Vec Ideal S64x1024 .f32) (s : Fin 64) (h : Fin 1024) :
    k0_pay6 (F := Ideal) v (ix3 0 s h) = v (ix2 s h) := by
  unfold k0_pay6
  refine (shapeCast_addUnit_apply ![64, 1024] v _ (ix3 0 s h)).trans ?_
  exact congrArg v (funext fun a => by match a with | ⟨0, _⟩ => rfl | ⟨1, _⟩ => rfl)

/-- The counts written out under a leading unit axis: element (0, 0, s) is element (0, s). -/
theorem pay7_apply (v : Vec Ideal S1x64 .f32) (s : Fin 64) :
    k0_pay7 (F := Ideal) v (ix3 0 0 s) = v (ix2 0 s) := by
  unfold k0_pay7
  refine (shapeCast_addUnit_apply ![1, 64] v _ (ix3 0 0 s)).trans ?_
  exact congrArg v (funext fun a => by match a with | ⟨0, _⟩ => rfl | ⟨1, _⟩ => rfl)

/-! ## The one-hot table -/

/-- The equality bit of two words, widened and read as a signed integer, is the extended real one where the
    words agree and zero where they differ. -/
theorem sitofp_cmpi_eq (x y : BitVec 32) :
    FloatOps.sitofp (F := Ideal) .f32 ((IntOp.cmpi .eq x y).setWidth 32) = if x = y then (1 : EReal) else 0 := by
  by_cases hxy : x = y
  · subst hxy
    rw [if_pos rfl]
    have h1 : IntOp.cmpi .eq x x = 1#1 := by
      show BitVec.ofBool (x == x) = 1#1
      rw [beq_self_eq_true]; rfl
    rw [h1]
    show (((((1#1 : BitVec 1).setWidth 32).toInt : ℤ) : ℝ) : EReal) = 1
    have h2 : ((1#1 : BitVec 1).setWidth 32).toInt = 1 := by decide
    rw [h2]; simp
  · rw [if_neg hxy]
    have h1 : IntOp.cmpi .eq x y = 0#1 := by
      show BitVec.ofBool (x == y) = 0#1
      rw [beq_eq_false_iff_ne.mpr hxy]; rfl
    rw [h1]
    show (((((0#1 : BitVec 1).setWidth 32).toInt : ℤ) : ℝ) : EReal) = 0
    have h2 : ((0#1 : BitVec 1).setWidth 32).toInt = 0 := by decide
    rw [h2]; simp

/-- The one-hot table at (r, s): token r's word is spread along the row, the column number s is the lane
    counter along axis 1, and the entry is one exactly when the word is the 32-bit word of s. -/
theorem onehot_apply (seg : Vec Ideal S2048x1 .i32) (r : Fin 2048) (s : Fin 64) :
    k0_pay3 (F := Ideal) seg (ix2 r s) = if seg (ix2 r 0) = BitVec.ofNat 32 s.val then (1 : EReal) else 0 := by
  unfold k0_pay3
  rw [sitofp_apply, extui_apply]
  show FloatOps.sitofp (F := Ideal) .f32 ((IntOp.cmpi .eq (broadcastTo S2048x64 (shapeCast S2048x1 seg _) _ (ix2 r s))
    (iota .tc S2048x64 32 [1] _ (ix2 r s))).setWidth 32) = _
  rw [shapeCast_self,
    broadcastTo_apply seg _ (ix2 r s) (ix2 r 0) (fun a => by match a with | ⟨0, _⟩ => rfl | ⟨1, _⟩ => rfl),
    iota_single_apply]
  exact sitofp_cmpi_eq _ _

/-! ## The count accumulator: the column sums of the one-hot table -/

/-- The count accumulator's update at s: the old value plus the number of the tile's tokens whose word is s. -/
theorem pay5_apply (seg : Vec Ideal S2048x1 .i32) (acc : Vec Ideal S1x64 .f32) (s : Fin 64) :
    k0_pay5 (F := Ideal) seg acc (ix2 0 s)
      = acc (ix2 0 s) + ∑ r : Fin 2048, (if seg (ix2 r 0) = BitVec.ofNat 32 s.val then (1 : EReal) else 0) := by
  unfold k0_pay5
  rw [shapeCast_self, addf_apply]
  refine congrArg (acc (ix2 0 s) + ·) ?_
  -- the row [1, 64] is the vector [64] of column sums; a column sum is the sum over the 2048 rows
  refine (shapeCast_addUnit_apply ![64] _ _ (ix2 0 s)).trans ?_
  refine (Ideal.multiReduction_add_single (k0_pay3 (F := Ideal) seg) 0x00000000#32 reduces_S2048x64_S64 (.inl rfl) rfl _).trans ?_
  refine Finset.sum_congr rfl fun r _ => ?_
  refine Eq.trans (congrArg (k0_pay3 (F := Ideal) seg) ?_) (onehot_apply seg r s)
  exact funext fun a => Fin.ext (by match a with | ⟨0, _⟩ => rfl | ⟨1, _⟩ => rfl)

/-! ## The sum accumulator: the one-hot table's transpose times the rows -/

/-- The product's dimension numbers: both operands contract their axis 0 (the tile's tokens); the left one's
    axis 1 (segments) and the right one's axis 1 (columns) are the result's two axes. -/
abbrev tileDot := dot_S2048x64_S2048x1024_S64x1024_0_0_1_1_n_n

/-- The left operand is read at row = the contraction coordinate … -/
theorem lhsIdx_0 (i : S64x1024.Idx) (q : dot_S2048x64_S2048x1024_S64x1024_0_0_1_1_n_n.contr.Idx) :
    (dot_S2048x64_S2048x1024_S64x1024_0_0_1_1_n_n.lhsIdx i q 0).val = (q ⟨0, by decide⟩).val :=
  dot_S2048x64_S2048x1024_S64x1024_0_0_1_1_n_n.lhsIdx_val_of_single rfl i q

/-- … and column = the result's first coordinate (the segment). -/
theorem lhsIdx_1 (i : S64x1024.Idx) (q : dot_S2048x64_S2048x1024_S64x1024_0_0_1_1_n_n.contr.Idx) :
    (dot_S2048x64_S2048x1024_S64x1024_0_0_1_1_n_n.lhsIdx i q 1).val = (i 0).val := by
  unfold DotDims.lhsIdx
  rw [dif_neg (show ¬(1 : Fin S2048x64.rank) ∈ dot_S2048x64_S2048x1024_S64x1024_0_0_1_1_n_n.lhsBatch by decide),
    dif_pos (show (1 : Fin S2048x64.rank) ∈ dot_S2048x64_S2048x1024_S64x1024_0_0_1_1_n_n.lhsNonContracting by decide)]
  rfl

/-- The right operand is read at row = the contraction coordinate … -/
theorem rhsIdx_0 (i : S64x1024.Idx) (q : dot_S2048x64_S2048x1024_S64x1024_0_0_1_1_n_n.contr.Idx) :
    (dot_S2048x64_S2048x1024_S64x1024_0_0_1_1_n_n.rhsIdx i q 0).val = (q ⟨0, by decide⟩).val :=
  dot_S2048x64_S2048x1024_S64x1024_0_0_1_1_n_n.rhsIdx_val_of_single rfl i q

/-- … and column = the result's second coordinate. -/
theorem rhsIdx_1 (i : S64x1024.Idx) (q : dot_S2048x64_S2048x1024_S64x1024_0_0_1_1_n_n.contr.Idx) :
    (dot_S2048x64_S2048x1024_S64x1024_0_0_1_1_n_n.rhsIdx i q 1).val = (i 1).val := by
  unfold DotDims.rhsIdx
  rw [dif_neg (show ¬(1 : Fin S2048x1024.rank) ∈ dot_S2048x64_S2048x1024_S64x1024_0_0_1_1_n_n.rhsBatch by decide),
    dif_pos (show (1 : Fin S2048x1024.rank) ∈ dot_S2048x64_S2048x1024_S64x1024_0_0_1_1_n_n.rhsNonContracting by decide)]
  rfl

/-- The sum accumulator's update at (s, h): the old value plus the rows of the tile's tokens whose word is s.
    The product at (s, h) is ∑ r, onehot[r, s] · hid[r, h]; each factor onehot[r, s] is one or zero, and
    1 · x = x, 0 · x = 0 hold for every extended real x. -/
theorem pay4_apply (seg : Vec Ideal S2048x1 .i32) (hid : Vec Ideal S2048x1024 .f32) (acc : Vec Ideal S64x1024 .f32)
    (s : Fin 64) (h : Fin 1024) :
    k0_pay4 (F := Ideal) seg hid acc (ix2 s h)
      = acc (ix2 s h) + ∑ r : Fin 2048, (if seg (ix2 r 0) = BitVec.ofNat 32 s.val then hid (ix2 r h) else 0) := by
  unfold k0_pay4
  rw [shapeCast_self, addf_apply]
  refine congrArg (acc (ix2 s h) + ·) ?_
  refine (Ideal.matmul_constant_zero_apply tileDot none (k0_pay3 (F := Ideal) seg) hid (ix2 s h)).trans ?_
  -- the contraction index is its one coordinate r < 2048
  refine (Equiv.sum_comp (contrEquiv1 tileDot 2048 rfl rfl).symm _).symm.trans ?_
  refine Finset.sum_congr rfl fun r _ => ?_
  have hk := contrEquiv1_symm_val tileDot 2048 rfl rfl r
  have el : tileDot.lhsIdx (ix2 s h) ((contrEquiv1 tileDot 2048 rfl rfl).symm r) = ix2 r s :=
    funext fun a => Fin.ext (by
      match a with
      | ⟨0, _⟩ => exact (lhsIdx_0 _ _).trans hk
      | ⟨1, _⟩ => exact lhsIdx_1 _ _)
  have er : tileDot.rhsIdx (ix2 s h) ((contrEquiv1 tileDot 2048 rfl rfl).symm r) = ix2 r h :=
    funext fun a => Fin.ext (by
      match a with
      | ⟨0, _⟩ => exact (rhsIdx_0 _ _).trans hk
      | ⟨1, _⟩ => exact rhsIdx_1 _ _)
  have e1 := (congrArg (k0_pay3 (F := Ideal) seg) el).trans (onehot_apply seg r s)
  have e2 := congrArg hid er
  refine (congrArg₂ (· * ·) e1 e2).trans ?_
  by_cases hs : seg (ix2 r 0) = BitVec.ofNat 32 s.val
  · rw [if_pos hs, if_pos hs]; exact one_mul _
  · rw [if_neg hs, if_neg hs]; exact zero_mul _

/-! ## The tokens split into tiles -/

/-- A sum over the 131072 tokens is the sum over the 64 tiles of the sums over each tile's 2048 tokens:
    token t = n · 2048 + r lies in tile n at place r. -/
theorem sum_tiles (f : Fin 131072 → EReal) :
    ∑ t : Fin 131072, f t = ∑ n : Fin 64, ∑ r : Fin 2048, f ⟨n.val * 2048 + r.val, by omega⟩ := by
  refine (Equiv.sum_comp (finProdFinEquiv (m := 64) (n := 2048)) f).symm.trans ?_
  rw [Fintype.sum_prod_type]
  refine Finset.sum_congr rfl fun n _ => Finset.sum_congr rfl fun r _ => ?_
  refine congrArg f (Fin.ext ?_)
  show r.val + 2048 * n.val = n.val * 2048 + r.val
  omega

end Cert.KernelIdeal.TileMath

end
-- ==== Proof.KernelMean.lean ====
/-
  The kernel's segment means are the specification's.

  The grid's 64 points are two cores times 32 tiles of 2048 tokens. One tile adds to the running totals the rows
  (and the number) of its tokens that carry each segment word; the totals restart from zero at each core's first
  tile. So after point n the totals are the contributions of the tiles from the core's first tile up to n, and
  after a core's last tile they are the contributions of its 32 tiles. The host adds the two cores' totals:
  together the 64 tiles hold every one of the 131072 tokens once, so the added sums are the segment sums and the
  added counts the segment counts, and the mean divides one by the other clamped below at one.
-/
import proofs.«431133_j10909216932176_3_alg».proof.Proof.Tail
import proofs.«431133_j10909216932176_3_alg».proof.Proof.Tiles
import proofs.«431133_j10909216932176_3_alg».proof.Proof.TileMath
import proofs.«431133_j10909216932176_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PoolValue

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD)

/-- Tile n's contribution to the segment sum at (s, h): the rows, at column h, of its tokens whose word is s. -/
def tileSum (x : Cert.Pool.Rows) (w : Cert.Pool.Words) (n : ℕ) (s : Fin 64) (h : Fin 1024) : EReal :=
  ∑ r : Fin 2048, if w (ix1 (tok n r)) = BitVec.ofNat 32 s.val then x (ix2 (tok n r) h) else 0

/-- Tile n's contribution to the segment count at s: how many of its tokens carry the word s. -/
def tileCnt (w : Cert.Pool.Words) (n : ℕ) (s : Fin 64) : EReal :=
  ∑ r : Fin 2048, if w (ix1 (tok n r)) = BitVec.ofNat 32 s.val then (1 : EReal) else 0

/-- The rows and the segment words the program is given. -/
abbrev rowsOf : Cert.Pool.Rows := m ((c.tc : Thread nD τ).loc main_arg0)
abbrev wordsOf : Cert.Pool.Words := m ((c.tc : Thread nD τ).loc main_arg1)

/-- One tile's update of the sums: the accumulator plus the tile's contribution. -/
theorem step_sum (t : Fin cfg0.N) (acc : Vec Ideal S64x1024 .f32) (s : Fin 64) (h : Fin 1024) :
    k0_pay4 (F := Ideal) (segBlk m c t) (rowBlk m c t) acc (ix2 s h)
      = acc (ix2 s h) + tileSum (m ((c.tc : Thread nD τ).loc main_arg0)) (m ((c.tc : Thread nD τ).loc main_arg1)) t.val s h := by
  rw [TileMath.pay4_apply]
  refine congrArg (acc (ix2 s h) + ·) (Finset.sum_congr rfl fun r _ => ?_)
  rw [segBlk_at, rowBlk_at]

/-- One tile's update of the counts. -/
theorem step_cnt (t : Fin cfg0.N) (acc : Vec Ideal S1x64 .f32) (s : Fin 64) :
    k0_pay5 (F := Ideal) (segBlk m c t) acc (ix2 0 s)
      = acc (ix2 0 s) + tileCnt (m ((c.tc : Thread nD τ).loc main_arg1)) t.val s := by
  rw [TileMath.pay5_apply]
  refine congrArg (acc (ix2 0 s) + ·) (Finset.sum_congr rfl fun r _ => ?_)
  rw [segBlk_at]

/-- After point n the sums are the contributions of the tiles from the core's first tile up to n. -/
theorem totals_sum : ∀ (n : ℕ) (hn : n < cfg0.N) (s : Fin 64) (h : Fin 1024),
    (totals m c n hn).1 (ix2 s h) = ∑ n' ∈ Finset.Ico (n - n % 32) (n + 1), tileSum (rowsOf m c) (wordsOf m c) n' s h
  | 0, hn, s, h => by
    simp only [totals]
    rw [step_sum m c ⟨0, hn⟩, TileMath.pay1_apply, zero_add]
    show _ = ∑ n' ∈ Finset.Ico 0 (0 + 1), _
    rw [Nat.Ico_succ_singleton, Finset.sum_singleton]
  | n + 1, hn, s, h => by
    have ih := totals_sum n (Nat.lt_of_succ_lt hn) s h
    by_cases h0 : (n + 1) % 32 = 0
    · simp only [totals, if_pos h0]
      rw [step_sum m c ⟨n + 1, hn⟩, TileMath.pay1_apply, zero_add, h0, Nat.sub_zero, Nat.Ico_succ_singleton,
        Finset.sum_singleton]
    · simp only [totals, if_neg h0]
      rw [step_sum m c ⟨n + 1, hn⟩, ih]
      have e : n + 1 - (n + 1) % 32 = n - n % 32 := by omega
      rw [e, Finset.sum_Ico_succ_top (by omega : n - n % 32 ≤ n + 1)]

/-- After point n the counts are the contributions of the tiles from the core's first tile up to n. -/
theorem totals_cnt : ∀ (n : ℕ) (hn : n < cfg0.N) (s : Fin 64),
    (totals m c n hn).2 (ix2 0 s) = ∑ n' ∈ Finset.Ico (n - n % 32) (n + 1), tileCnt (wordsOf m c) n' s
  | 0, hn, s => by
    simp only [totals]
    rw [step_cnt m c ⟨0, hn⟩, TileMath.pay2_apply, zero_add]
    show _ = ∑ n' ∈ Finset.Ico 0 (0 + 1), _
    rw [Nat.Ico_succ_singleton, Finset.sum_singleton]
  | n + 1, hn, s => by
    have ih := totals_cnt n (Nat.lt_of_succ_lt hn) s
    by_cases h0 : (n + 1) % 32 = 0
    · simp only [totals, if_pos h0]
      rw [step_cnt m c ⟨n + 1, hn⟩, TileMath.pay2_apply, zero_add, h0, Nat.sub_zero, Nat.Ico_succ_singleton,
        Finset.sum_singleton]
    · simp only [totals, if_neg h0]
      rw [step_cnt m c ⟨n + 1, hn⟩, ih]
      have e : n + 1 - (n + 1) % 32 = n - n % 32 := by omega
      rw [e, Finset.sum_Ico_succ_top (by omega : n - n % 32 ≤ n + 1)]

/-- The 64 tiles hold every token once: their contributions add up to the segment sum … -/
theorem tiles_segSum (x : Cert.Pool.Rows) (w : Cert.Pool.Words) (s : Fin 64) (h : Fin 1024) :
    ∑ n' ∈ Finset.Ico 0 32, tileSum x w n' s h + ∑ n' ∈ Finset.Ico 32 64, tileSum x w n' s h
      = Cert.Pool.segSum x w s h := by
  rw [Finset.sum_Ico_consecutive _ (by decide : 0 ≤ 32) (by decide : 32 ≤ 64), ← Finset.range_eq_Ico, Finset.sum_range]
  unfold Cert.Pool.segSum
  rw [TileMath.sum_tiles]
  refine Finset.sum_congr rfl fun n _ => ?_
  unfold tileSum
  refine Finset.sum_congr rfl fun r _ => ?_
  have e : tok n.val r = ⟨n.val * 2048 + r.val, by omega⟩ :=
    Fin.ext (by show (n.val % 64) * 2048 + r.val = _; rw [Nat.mod_eq_of_lt n.isLt])
  rw [e]

/-- … and to the segment count. -/
theorem tiles_segCnt (w : Cert.Pool.Words) (s : Fin 64) :
    ∑ n' ∈ Finset.Ico 0 32, tileCnt w n' s + ∑ n' ∈ Finset.Ico 32 64, tileCnt w n' s = Cert.Pool.segCnt w s := by
  rw [Finset.sum_Ico_consecutive _ (by decide : 0 ≤ 32) (by decide : 32 ≤ 64), ← Finset.range_eq_Ico, Finset.sum_range]
  unfold Cert.Pool.segCnt
  rw [TileMath.sum_tiles]
  refine Finset.sum_congr rfl fun n _ => ?_
  unfold tileCnt
  refine Finset.sum_congr rfl fun r _ => ?_
  have e : tok n.val r = ⟨n.val * 2048 + r.val, by omega⟩ :=
    Fin.ext (by show (n.val % 64) * 2048 + r.val = _; rw [Nat.mod_eq_of_lt n.isLt])
  rw [e]

/-- Slab k of the sums' array, at (s, h): core k's totals after its last tile. -/
theorem coreSums_at (k : Fin 2) (s : Fin 64) (h : Fin 1024) :
    coreSums m c (ix3 k s h) = (totals m c (32 * k.val + 31) (last_lt k)).1 (ix2 s h) := rfl

/-- Slab k of the counts' array, at s. -/
theorem coreCnts_at (k : Fin 2) (s : Fin 64) :
    coreCnts m c (ix3 k 0 s) = (totals m c (32 * k.val + 31) (last_lt k)).2 (ix2 0 s) := rfl

/-- The two cores' sums, added by the host, are the segment sums. -/
theorem added_sums (s : Fin 64) (h : Fin 1024) :
    Host.reduceAdd (F := Ideal) (coreSums m c) (constant S_ .f32 0x00000000#32) reducesTo_S2x64x1024_S64x1024_d0 h_S_ (ix2 s h)
      = Cert.Pool.segSum (rowsOf m c) (wordsOf m c) s h := by
  have hR : S2x64x1024.Reduces [0] S64x1024 := by decide
  simp only [Host.reduceAdd, Ideal.hostReduceAdd_def]
  rw [Ideal.hostReduceAdd_single reducesTo_S2x64x1024_S64x1024_d0 hR]
  have hl : ∀ k : Fin 2, hR.lift (ix2 s h) k = ix3 k s h := fun k => funext fun a => Fin.ext (by
    match a with | ⟨0, _⟩ => rfl | ⟨1, _⟩ => rfl | ⟨2, _⟩ => rfl)
  refine (congrArg (_ + ·) (Finset.sum_congr rfl fun k _ =>
    (congrArg (coreSums m c) (hl k)).trans (coreSums_at m c k s h))).trans ?_
  have t0 : (totals m c (32 * (0 : Fin 2).val + 31) (last_lt 0)).1 (ix2 s h)
      = ∑ n' ∈ Finset.Ico 0 32, tileSum (rowsOf m c) (wordsOf m c) n' s h := totals_sum m c _ _ s h
  have t1 : (totals m c (32 * (1 : Fin 2).val + 31) (last_lt 1)).1 (ix2 s h)
      = ∑ n' ∈ Finset.Ico 32 64, tileSum (rowsOf m c) (wordsOf m c) n' s h := totals_sum m c _ _ s h
  show Ideal.ofBits .f32 0x00000000#32 + ∑ k : Fin 2, _ = _
  rw [Ideal.ofBits_zero_f32, zero_add, Fin.sum_univ_two, t0, t1]
  exact tiles_segSum _ _ s h

/-- The two cores' counts, added by the host, are the segment counts. -/
theorem added_cnts (s : Fin 64) :
    Host.reduceAdd (F := Ideal) (coreCnts m c) (constant S_ .f32 0x00000000#32) reducesTo_S2x1x64_S1x64_d0 h_S_ (ix2 0 s)
      = Cert.Pool.segCnt (wordsOf m c) s := by
  have hR : S2x1x64.Reduces [0] S1x64 := by decide
  simp only [Host.reduceAdd, Ideal.hostReduceAdd_def]
  rw [Ideal.hostReduceAdd_single reducesTo_S2x1x64_S1x64_d0 hR]
  have hl : ∀ k : Fin 2, hR.lift (ix2 0 s) k = ix3 k 0 s := fun k => funext fun a => Fin.ext (by
    match a with | ⟨0, _⟩ => rfl | ⟨1, _⟩ => rfl | ⟨2, _⟩ => rfl)
  refine (congrArg (_ + ·) (Finset.sum_congr rfl fun k _ =>
    (congrArg (coreCnts m c) (hl k)).trans (coreCnts_at m c k s))).trans ?_
  have t0 : (totals m c (32 * (0 : Fin 2).val + 31) (last_lt 0)).2 (ix2 0 s)
      = ∑ n' ∈ Finset.Ico 0 32, tileCnt (wordsOf m c) n' s := totals_cnt m c _ _ s
  have t1 : (totals m c (32 * (1 : Fin 2).val + 31) (last_lt 1)).2 (ix2 0 s)
      = ∑ n' ∈ Finset.Ico 32 64, tileCnt (wordsOf m c) n' s := totals_cnt m c _ _ s
  show Ideal.ofBits .f32 0x00000000#32 + ∑ k : Fin 2, _ = _
  rw [Ideal.ofBits_zero_f32, zero_add, Fin.sum_univ_two, t0, t1]
  exact tiles_segCnt _ s

/-- The kernel's segment mean at (s, h) is the specification's. -/
theorem mean_apply (m : (ℓ : Loc nD τ sig) → Buf (Elt Ideal) ℓ) (c : Dev nD) (s : Fin 64) (h : Fin 1024) :
    meanOf (coreSums m c) (coreCnts m c) (ix2 s h)
      = Cert.Pool.mean (m ((c.tc : Thread nD τ).loc main_arg0)) (m ((c.tc : Thread nD τ).loc main_arg1)) s h := by
  unfold meanOf Cert.Pool.mean
  show FloatOps.hostDivf (Host.reduceAdd (F := Ideal) (coreSums m c) _ _ _ (ix2 s h))
    (broadcastInDim S64x1024 _ _ _ (ix2 s h)) = _
  rw [added_sums]
  refine congrArg (FloatOps.hostDivf (F := Ideal) (φ := .f32) _) ?_
  -- the divisor at (s, h) is the clamped count at s: a column [64, 1] spread along the rows, the column the
  -- transpose of a row [1, 64]
  refine (broadcastInDim_apply _ bcast_S64x1_S64x1024_0_1 _ (ix2 s h) (ix2 s 0) (fun a => by
    match a with
    | ⟨0, _⟩ => show s.val = if (64 : Nat) = 1 then 0 else s.val; rw [if_neg (by decide)]
    | ⟨1, _⟩ => show 0 = if (1 : Nat) = 1 then 0 else h.val; rw [if_pos rfl])).trans ?_
  refine (transpose_apply [1, 0] _ transposes_S1x64_S64x1_1_0 (ix2 s 0) (ix2 0 s) (fun b => by
    match b with | ⟨0, _⟩ => rfl | ⟨1, _⟩ => rfl)).trans ?_
  show FloatOps.maximumf (Host.reduceAdd (F := Ideal) (coreCnts m c) _ _ _ (ix2 0 s))
    (broadcastInDim S1x64 _ bcast_S_S1x64 (constant S_ .f32 0x3F800000#32) (ix2 0 s)) = _
  rw [added_cnts]
  refine congrArg (FloatOps.maximumf (F := Ideal) (φ := .f32) _) ?_
  exact broadcastInDim_apply _ bcast_S_S1x64 _ (ix2 0 s) ix0 (fun a => a.elim0)

end Cert.KernelIdeal.PoolValue

end
-- ==== Proof.RefSide.lean ====
/-
  The reference program read as mathematics. Its two scatters are the segment sums and the segment counts of the
  specification: update row t lands on operand row seg[t], read as a signed number, when that number is one of
  0 … 63, and is dropped otherwise; so the element at (s, h) is the sum over the tokens whose word is s of x[t, h],
  and the count at s is the number of such tokens. Everything after the scatters is elementwise or a row sum and
  is read stage by stage.
-/
import proofs.«431133_j10909216932176_3_alg».proof.Proof.Gen.ReferenceIdeal.Read
import proofs.«431133_j10909216932176_3_alg».proof.Proof.Spec
import Idealize.ShloMosaic.Lib.ValueIdxRank1

noncomputable section

open scoped BigOperators

namespace Cert.ReferenceIdeal.RefValue

open Idealize.ShloMosaic Idealize.ShloMosaic.ValueIdx Cert.ReferenceIdeal Cert.ReferenceIdeal.Gen
open Idealize.ShloMosaic.TcCoe Idealize.SL.Sem Idealize.ShloMosaic.StableHlo

/-- The dimension numbers of the row scatter: update (t, h') goes to operand row seg[t], column h'. -/
abbrev dS := scatter_S64x1024_S131072x1_S131072x1024_1_0_0_1
/-- The dimension numbers of the count scatter: update t goes to operand element seg[t]. -/
abbrev dC := scatter_S64_S131072x1_S131072_n_0_0_1

/-- On the row axis the window of update j starts at the segment word of token j 0, read signed. -/
theorem dS_start0 (j : S131072x1024.Idx) (idx : IVec S131072x1 32) :
    dS.start j idx (0 : Fin 2) = (idx (ix2 (j 0) 0)).toInt := by
  unfold ScatterDims.start
  rw [dif_pos (by decide)]
  refine congrArg (fun q => (idx q).toInt) (funext fun b => ?_)
  match b with
  | ⟨0, _⟩ => rfl
  | ⟨1, _⟩ => rfl

/-- On the column axis every window starts at 0. -/
theorem dS_start1 (j : S131072x1024.Idx) (idx : IVec S131072x1 32) :
    dS.start j idx (1 : Fin 2) = 0 := by
  unfold ScatterDims.start
  rw [dif_neg (by decide)]

/-- The row axis is an inserted axis: its window coordinate is 0. -/
theorem dS_window0 (j : S131072x1024.Idx) : dS.window j (0 : Fin 2) = 0 := by
  unfold ScatterDims.window
  rw [dif_neg (by decide)]

/-- The column axis carries the update's own column. -/
theorem dS_window1 (j : S131072x1024.Idx) : dS.window j (1 : Fin 2) = (j 1).val := by
  unfold ScatterDims.window
  rw [dif_pos (by decide)]
  rfl

/-- Update j lands on (s, h) exactly when its token's word, read signed, is s and its column is h: a word that is
    negative or 64 and above leaves the operand and the update is dropped. -/
theorem dS_resultIdx_iff (idx : IVec S131072x1 32) (j : S131072x1024.Idx) (s : Fin 64) (h : Fin 1024) :
    dS.resultIdx? j idx = some (ix2 s h) ↔ ((idx (ix2 (j 0) 0)).toInt = (s.val : Int) ∧ j 1 = h) := by
  unfold ScatterDims.resultIdx?
  have hs : s.val < 64 := s.isLt
  have hj : (j 1).val < 1024 := (j 1).isLt
  constructor
  · intro hyp
    split at hyp
    · rename_i hc
      have e := Option.some.inj hyp
      have e0 := congrArg (fun f => (f (0 : Fin 2)).val) e
      have e1 := congrArg (fun f => (f (1 : Fin 2)).val) e
      simp only [dS_start0, dS_start1, dS_window0, dS_window1] at e0 e1
      have c0 := hc 0
      rw [dS_start0, dS_window0] at c0
      refine ⟨?_, Fin.ext ?_⟩
      · change ((idx (ix2 (j 0) 0)).toInt + ((0 : Nat) : Int)).toNat = s.val at e0
        omega
      · change ((0 : Int) + ((j 1).val : Int)).toNat = h.val at e1
        omega
    · exact absurd hyp (by simp)
  · rintro ⟨h0, h1⟩
    have hc : ∀ a : Fin 2, 0 ≤ dS.start j idx a + dS.window j a ∧ dS.start j idx a + dS.window j a < (S64x1024.size a : Int) := by
      intro a
      match a with
      | ⟨0, _⟩ =>
        show 0 ≤ dS.start j idx (0 : Fin 2) + dS.window j (0 : Fin 2) ∧ dS.start j idx (0 : Fin 2) + dS.window j (0 : Fin 2) < (64 : Int)
        rw [dS_start0, dS_window0, h0]; omega
      | ⟨1, _⟩ =>
        show 0 ≤ dS.start j idx (1 : Fin 2) + dS.window j (1 : Fin 2) ∧ dS.start j idx (1 : Fin 2) + dS.window j (1 : Fin 2) < (1024 : Int)
        rw [dS_start1, dS_window1]; omega
    rw [dif_pos hc]
    refine congrArg some (funext fun a => Fin.ext ?_)
    match a with
    | ⟨0, _⟩ =>
      show (dS.start j idx (0 : Fin 2) + dS.window j (0 : Fin 2)).toNat = s.val
      rw [dS_start0, dS_window0, h0]; omega
    | ⟨1, _⟩ =>
      show (dS.start j idx (1 : Fin 2) + dS.window j (1 : Fin 2)).toNat = h.val
      rw [dS_start1, dS_window1, ← h1]; omega

/-- A 32-bit word read signed is the number s below 64 exactly when it is the word of s. -/
theorem toInt_eq_iff (w : BitVec 32) (s : Fin 64) :
    w.toInt = (s.val : Int) ↔ w = BitVec.ofNat 32 s.val := by
  have hs : s.val < 64 := s.isLt
  have hw : w.toNat < 2 ^ 32 := w.isLt
  rw [BitVec.toInt_eq_toNat_cond]
  constructor
  · intro h
    apply BitVec.eq_of_toNat_eq
    rw [BitVec.toNat_ofNat]
    split at h <;> omega
  · intro h
    subst h
    rw [BitVec.toNat_ofNat]
    have e : s.val % 2 ^ 32 = s.val := Nat.mod_eq_of_lt (by omega)
    rw [e]
    split <;> omega

/-- The pattern 0x3F800000 denotes the real 1: sign +, exponent 127, fraction 0, so 2^23 · 2^(127 − 127 − 23). -/
theorem one_f32 : Ideal.ofBits .f32 0x3F800000#32 = (1 : EReal) := by
  simp [Ideal.ofBits, Ideal.ieee, -EReal.coe_mul]
  norm_num

/-- The scatter indices of the row scatter at (t, 0) are the segment word of token t. -/
theorem v1_apply (x1 : (⟨S131072, .i32⟩ : BufTy).Contents (Elt Ideal)) (t : Fin 131072) :
    Read.val_main_v1 (F := Ideal) x1 (ix2 t 0) = x1 (ix1 t) := by
  rw [Read.val_main_v1_apply]
  exact congrArg x1 (funext fun a => Fin.ext (by match a with | ⟨0, _⟩ => rfl))

/-- The first scatter at row s, column h is the segment sum: the zero operand element plus the updates landing on
    (s, h); over the columns of one token only column h can land there, so the double sum collapses to the sum
    over tokens of an indicator of the word. -/
theorem sums_apply (x0 : (⟨S131072x1024, .f32⟩ : BufTy).Contents (Elt Ideal))
    (x1 : (⟨S131072, .i32⟩ : BufTy).Contents (Elt Ideal)) (s : Fin 64) (h : Fin 1024) :
    Read.val_main_v2 (F := Ideal) x0 x1 (ix2 s h) = Cert.Pool.segSum x0 x1 s h := by
  unfold Read.val_main_v2 Host.scatterAdd
  rw [Ideal.hostScatterAdd_def]
  unfold Ideal.hostScatterAdd Cert.Pool.segSum
  rw [Read.val_main_v0_apply, Read.val_main_cst_apply, Ideal.ofBits_def, Ideal.ofBits_zero_f32, zero_add,
    Finset.sum_filter, sum_idx2]
  refine Finset.sum_congr rfl fun t _ => ?_
  have key : ∀ b : Fin 1024,
      (if dS.resultIdx? (ix2 t b) (Read.val_main_v1 (F := Ideal) x1) = some (ix2 s h) then x0 (ix2 t b) else 0)
        = if b = h then (if x1 (ix1 t) = BitVec.ofNat 32 s.val then x0 (ix2 t h) else 0) else 0 := by
    intro b
    have e := dS_resultIdx_iff (Read.val_main_v1 (F := Ideal) x1) (ix2 t b) s h
    change _ ↔ ((Read.val_main_v1 (F := Ideal) x1 (ix2 t 0)).toInt = (s.val : Int) ∧ b = h) at e
    rw [v1_apply, toInt_eq_iff] at e
    by_cases hb : b = h
    · subst hb
      rw [if_pos rfl]
      exact if_congr (e.trans (and_iff_left rfl)) rfl rfl
    · rw [if_neg hb, if_neg (fun hyp => hb (e.1 hyp).2)]
  rw [Finset.sum_congr rfl (fun b _ => key b), Finset.sum_ite_eq', if_pos (Finset.mem_univ _)]

/-- The window of update t of the count scatter starts at the segment word of token t, read signed. -/
theorem dC_start0 (j : S131072.Idx) (idx : IVec S131072x1 32) :
    dC.start j idx (0 : Fin 1) = (idx (ix2 (j 0) 0)).toInt := by
  unfold ScatterDims.start
  rw [dif_pos (by decide)]
  refine congrArg (fun q => (idx q).toInt) (funext fun b => ?_)
  match b with
  | ⟨0, _⟩ => rfl
  | ⟨1, _⟩ => rfl

/-- The count scatter's one operand axis is inserted: its window coordinate is 0. -/
theorem dC_window0 (j : S131072.Idx) : dC.window j (0 : Fin 1) = 0 := by
  unfold ScatterDims.window
  rw [dif_neg (by decide)]

/-- Update t of the count scatter lands on s exactly when token t's word, read signed, is s. -/
theorem dC_resultIdx_iff (idx : IVec S131072x1 32) (j : S131072.Idx) (s : Fin 64) :
    dC.resultIdx? j idx = some (ix1 s) ↔ (idx (ix2 (j 0) 0)).toInt = (s.val : Int) := by
  unfold ScatterDims.resultIdx?
  have hs : s.val < 64 := s.isLt
  constructor
  · intro hyp
    split at hyp
    · rename_i hc
      have e0 := congrArg (fun f => (f (0 : Fin 1)).val) (Option.some.inj hyp)
      have c0 := hc 0
      rw [dC_start0, dC_window0] at c0
      simp only [dC_start0, dC_window0] at e0
      change ((idx (ix2 (j 0) 0)).toInt + ((0 : Nat) : Int)).toNat = s.val at e0
      omega
    · exact absurd hyp (by simp)
  · intro h0
    have hc : ∀ a : Fin 1, 0 ≤ dC.start j idx a + dC.window j a ∧ dC.start j idx a + dC.window j a < (S64.size a : Int) := by
      intro a
      match a with
      | ⟨0, _⟩ =>
        show 0 ≤ dC.start j idx (0 : Fin 1) + dC.window j (0 : Fin 1) ∧ dC.start j idx (0 : Fin 1) + dC.window j (0 : Fin 1) < (64 : Int)
        rw [dC_start0, dC_window0, h0]; omega
    rw [dif_pos hc]
    refine congrArg some (funext fun a => Fin.ext ?_)
    match a with
    | ⟨0, _⟩ =>
      show (dC.start j idx (0 : Fin 1) + dC.window j (0 : Fin 1)).toNat = s.val
      rw [dC_start0, dC_window0, h0]; omega

/-- The scatter indices of the count scatter at (t, 0) are the segment word of token t. -/
theorem v5_apply (x1 : (⟨S131072, .i32⟩ : BufTy).Contents (Elt Ideal)) (t : Fin 131072) :
    Read.val_main_v5 (F := Ideal) x1 (ix2 t 0) = x1 (ix1 t) := by
  rw [Read.val_main_v5_apply]
  exact congrArg x1 (funext fun a => Fin.ext (by match a with | ⟨0, _⟩ => rfl))

/-- The second scatter at s is the segment count: zero plus one for every token whose word is s. -/
theorem counts_apply (x1 : (⟨S131072, .i32⟩ : BufTy).Contents (Elt Ideal)) (s : Fin 64) :
    Read.val_main_v6 (F := Ideal) x1 (ix1 s) = Cert.Pool.segCnt x1 s := by
  unfold Read.val_main_v6 Host.scatterAdd
  rw [Ideal.hostScatterAdd_def]
  unfold Ideal.hostScatterAdd Cert.Pool.segCnt
  rw [Read.val_main_v4_apply, Read.val_main_cst_1_apply, Ideal.ofBits_def, Ideal.ofBits_zero_f32, zero_add,
    Finset.sum_filter, ← Equiv.sum_comp (idxEquiv1 (n := 131072)).symm]
  refine Finset.sum_congr rfl fun t _ => ?_
  show (if dC.resultIdx? (ix1 t) (Read.val_main_v5 (F := Ideal) x1) = some (ix1 s) then Read.val_main_v3 (F := Ideal) (ix1 t) else 0) = _
  have e := dC_resultIdx_iff (Read.val_main_v5 (F := Ideal) x1) (ix1 t) s
  change _ ↔ ((Read.val_main_v5 (F := Ideal) x1 (ix2 t 0)).toInt = (s.val : Int)) at e
  rw [v5_apply, toInt_eq_iff] at e
  rw [Read.val_main_v3_apply, Read.val_main_cst_0_apply, Ideal.ofBits_def, one_f32]
  exact if_congr e rfl rfl

/-- The quotient of the two scatters, the count clamped below at one, is the segment mean. -/
theorem mean_apply (x0 : (⟨S131072x1024, .f32⟩ : BufTy).Contents (Elt Ideal))
    (x1 : (⟨S131072, .i32⟩ : BufTy).Contents (Elt Ideal)) (s : Fin 64) (h : Fin 1024) :
    Read.val_main_v11 (F := Ideal) x0 x1 (ix2 s h) = Cert.Pool.mean x0 x1 s h := by
  have i10 : Read.idx_main_v10 (ix2 s h) = ix2 s (0 : Fin 1) :=
    funext fun a => Fin.ext (by match a with | ⟨0, _⟩ => rfl | ⟨1, _⟩ => rfl)
  have i9 : Read.idx_main_v9 (ix2 s (0 : Fin 1)) = ix1 s :=
    funext fun a => Fin.ext (by match a with | ⟨0, _⟩ => rfl)
  rw [Read.val_main_v11_apply, sums_apply, Read.val_main_v10_apply, i10, Read.val_main_v9_apply, i9,
    Read.val_main_v8_apply, counts_apply, Read.val_main_v7_apply, Read.val_main_cst_2_apply]
  rfl

/-- The reference's result at row s, column h is the pooled, normalized table. -/
theorem result_apply (x0 : (⟨S131072x1024, .f32⟩ : BufTy).Contents (Elt Ideal))
    (x1 : (⟨S131072, .i32⟩ : BufTy).Contents (Elt Ideal)) (s : Fin 64) (h : Fin 1024) :
    Read.val_main_v16 (F := Ideal) x0 x1 (ix2 s h) = Cert.Pool.pooled x0 x1 s h := by
  have i15 : Read.idx_main_v15 (ix2 s h) = ix2 s (0 : Fin 1) :=
    funext fun a => Fin.ext (by match a with | ⟨0, _⟩ => rfl | ⟨1, _⟩ => rfl)
  have ic2 : Read.idx_main_call0_v2 (ix2 s (0 : Fin 1)) = ix1 s :=
    funext fun a => Fin.ext (by match a with | ⟨0, _⟩ => rfl)
  have ic1 : ∀ k : Fin 1024, Read.idx_main_call0_v1 (ix1 s) k = ix2 s k := fun k =>
    funext fun a => Fin.ext (by match a with | ⟨0, _⟩ => rfl | ⟨1, _⟩ => rfl)
  rw [Read.val_main_v16_apply, mean_apply, Read.val_main_v15_apply, i15, Read.val_main_v14_apply,
    Read.val_main_v12_apply, Read.val_main_call0_v2_apply, ic2, Read.val_main_call0_v1_apply,
    Read.val_main_call0_cst_apply, Read.val_main_v13_apply, Read.val_main_cst_3_apply]
  have hsum : (∑ k : Fin 1024, Read.val_main_call0_v0 (F := Ideal) x0 x1 (Read.idx_main_call0_v1 (ix1 s) k))
      = ∑ k : Fin 1024, FloatOps.mulf (F := Ideal) (φ := .f32) (Cert.Pool.mean x0 x1 s k) (Cert.Pool.mean x0 x1 s k) :=
    Finset.sum_congr rfl fun k _ => by rw [ic1 k, Read.val_main_call0_v0_apply, mean_apply]
  rw [hsum]
  rfl

/-- Every weakly fair run of the reference ends with the pooled table in its result and its arguments unchanged. -/
theorem frame_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = (fun i => Cert.Pool.pooled (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c => by
    obtain ⟨h16, h0, h1⟩ := hr c
    refine ⟨?_, h0, h1⟩
    rw [h16, Read.val_main_v16_eq]
    funext i
    exact (congrArg (Read.val_main_v16 (F := Ideal) _ _) (eq_ix2 i)).trans (result_apply _ _ (i 0) (i 1)))
    (Value.run m ρ)

end Cert.ReferenceIdeal.RefValue

end
-- ==== Proof.lean ====
/-
  A ragged mean-pool followed by a row normalization, computed two ways, is one function over the extended reals.

  The kernel turns each tile of 2048 tokens into a 0/1 membership table against the 64 segment numbers, multiplies
  its transpose into the tile's rows (the tile's segment sums) and adds up its columns (the tile's segment counts),
  accumulates both over the 32 tiles of each of two cores, and lets the host add the two cores' totals. The
  reference scatters every row, and a one per token, onto the row its segment word names, dropping words that name
  no segment. A product with a 0/1 entry is the row or zero for EVERY extended real, so both are the sum over the
  tokens whose word is the segment (Proof/Spec.lean), with no finiteness needed. From the sums and counts on, both
  programs apply the same operations: the clamp of the counts at one, the quotient, and each row over its clamped
  Euclidean norm; equal means give equal results.
-/
import proofs.«431133_j10909216932176_3_alg».proof.Defs
import proofs.«431133_j10909216932176_3_alg».proof.Proof.Gen.Kernel
import proofs.«431133_j10909216932176_3_alg».proof.Proof.Gen.Kernel.Skeleton
import proofs.«431133_j10909216932176_3_alg».proof.Proof.Gen.Kernel.Launch
import proofs.«431133_j10909216932176_3_alg».proof.Proof.Gen.Kernel.Points
import proofs.«431133_j10909216932176_3_alg».proof.Proof.Gen.Kernel.Frame
import proofs.«431133_j10909216932176_3_alg».proof.Proof.Gen.KernelIdeal
import proofs.«431133_j10909216932176_3_alg».proof.Proof.Gen.KernelIdeal.Skeleton
import proofs.«431133_j10909216932176_3_alg».proof.Proof.Gen.KernelIdeal.Launch
import proofs.«431133_j10909216932176_3_alg».proof.Proof.Gen.KernelIdeal.Points
import proofs.«431133_j10909216932176_3_alg».proof.Proof.Gen.KernelIdeal.Frame
import proofs.«431133_j10909216932176_3_alg».proof.Proof.Gen.ReferenceIdeal
import proofs.«431133_j10909216932176_3_alg».proof.Proof.Gen.Pre_finite_inputs
import proofs.«431133_j10909216932176_3_alg».proof.Proof.Gen.ReferenceIdeal.Run
import proofs.«431133_j10909216932176_3_alg».proof.Proof.Gen.ReferenceIdeal.Read
import proofs.«431133_j10909216932176_3_alg».proof.Proof.Tail
import proofs.«431133_j10909216932176_3_alg».proof.Proof.KernelMean
import proofs.«431133_j10909216932176_3_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result is the kernel's: their mean tables agree entry by entry (each is the specification's
    mean), and the rest of both programs is the same row normalization. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v16 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.PoolValue.normTail (F := Ideal) (Cert.KernelIdeal.PoolValue.meanOf
          (Cert.KernelIdeal.PoolValue.coreSums m c) (Cert.KernelIdeal.PoolValue.coreCnts m c)) := by
  have hv : Cert.ReferenceIdeal.Read.val_main_v11 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.PoolValue.meanOf (Cert.KernelIdeal.PoolValue.coreSums m c) (Cert.KernelIdeal.PoolValue.coreCnts m c) := by
    funext j
    obtain ⟨s, h, rfl⟩ : ∃ (s : Fin 64) (h : Fin 1024), j = ix2 s h := ⟨j 0, j 1, eq_ix2 j⟩
    rw [Cert.ReferenceIdeal.RefValue.mean_apply, Cert.KernelIdeal.PoolValue.mean_apply]
  show Cert.KernelIdeal.PoolValue.normTail (F := Ideal) (Cert.ReferenceIdeal.Read.val_main_v11 (F := Ideal) _ _) = _
  rw [hv]

theorem algebraic : Cert.algebraic_KernelIdeal_ReferenceIdeal := by
  intro m ρ m' ρ' _ hagree
  refine ⟨fun c => Cert.KernelIdeal.PoolValue.normTail (F := Ideal) (Cert.KernelIdeal.PoolValue.meanOf
      (Cert.KernelIdeal.PoolValue.coreSums m c) (Cert.KernelIdeal.PoolValue.coreCnts m c)),
    Cert.KernelIdeal.PoolValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
